-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x768 : S_.BroadcastsInDim S32768x768 (![] : Fin 0 → Fin S32768x768.rank)
  reducesTo_S32768x768_S_d0_1 : S32768x768.ReducesTo [0, 1] S_
  bcast_S_S32768x256 : S_.BroadcastsInDim S32768x256 (![] : Fin 0 → Fin S32768x256.rank)
  reducesTo_S32768x256_S_d0_1 : S32768x256.ReducesTo [0, 1] S_
  bcast_S_S32768x128 : S_.BroadcastsInDim S32768x128 (![] : Fin 0 → Fin S32768x128.rank)
  reducesTo_S32768x128_S_d0_1 : S32768x128.ReducesTo [0, 1] S_
  bcast_S_S1920x512 : S_.BroadcastsInDim S1920x512 (![] : Fin 0 → Fin S1920x512.rank)
  reducesTo_S1920x512_S_d0_1 : S1920x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512x512 .f32 := Host.absf main_arg15
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg17
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_v83 main_v84 main_cst_32

def fn_part3 {F : FTy → Type} [FloatOps F] (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1920x512 .f32 := Host.absf main_arg13
  let main_cst_22 : FVec F S_ .f32 := constant S_ .f32 0x7F800000#32
  let main_v60 : FVec F S1920x512 .f32 := broadcastInDim S1920x512 ![] bcast_S_S1920x512 main_cst_22
  let main_v61 : IVec S1920x512 1 := cmpf .olt main_v59 main_v60
  let main_c_23 : IVec S_ 1 := constantI S_ 1 1#1
  let main_v62 : IVec S_ 1 := (fun x v => Host.reduce IntOp.andi x v reducesTo_S1920x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_arg18 main_v63 main_v67

def fn_part2 {F : FTy → Type} [FloatOps F] (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg12 main_arg13 main_arg14 main_arg15 main_arg16 main_arg17 main_arg18 main_v48 main_v49 main_v50

def fn_part1 {F : FTy → Type} [FloatOps F] (main_arg4 : FVec F S32768x256 .f32) (main_arg5 : FVec F S32768x128 .f32) (main_arg7 : FVec F S1920x512 .f32) (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S32768x128 .f32 := Host.absf main_arg5
  let main_cst_8 : FVec F S_ .f32 := constant S_ .f32 0x7F800000#32
  let main_v25 : FVec F S32768x128 .f32 := broadcastInDim S32768x128 ![] bcast_S_S32768x128 main_cst_8
  let main_v26 : IVec S32768x128 1 := cmpf .olt main_v24 main_v25
  let main_c_9 : IVec S_ 1 := constantI S_ 1 1#1
  let main_v27 : IVec S_ 1 := (fun x v => Host.reduce IntOp.andi x v reducesTo_S32768x128_S_d0_1 h_S_) main_v26 main_c_9
  let main_v28 : IVec S_ 1 := andi main_v23 main_v27
  let main_v29 : FVec F S1920x512 .f32 := Host.absf main_arg7
  let main_cst_10 : FVec F S_ .f32 := constant S_ .f32 0x7F800000#32
  let main_v30 : FVec F S1920x512 .f32 := broadcastInDim S1920x512 ![] bcast_S_S1920x512 main_cst_10
  let main_v31 : IVec S1920x512 1 := cmpf .olt main_v29 main_v30
  let main_c_11 : IVec S_ 1 := constantI S_ 1 1#1
  let main_v32 : IVec S_ 1 := (fun x v => Host.reduce IntOp.andi x v reducesTo_S1920x512_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S32768x512 .f32) (main_arg1 : FVec F S32768x512 .f32) (main_arg2 : FVec F S32768x768 .f32) (main_arg3 : FVec F S32768x256 .f32) (main_arg4 : FVec F S32768x256 .f32) (main_arg5 : FVec F S32768x128 .f32) (main_arg6 : IVec S32768x3 32) (main_arg7 : FVec F S1920x512 .f32) (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x768 .f32 := Host.absf main_arg2
  let main_cst_2 : FVec F S_ .f32 := constant S_ .f32 0x7F800000#32
  let main_v10 : FVec F S32768x768 .f32 := broadcastInDim S32768x768 ![] bcast_S_S32768x768 main_cst_2
  let main_v11 : IVec S32768x768 1 := cmpf .olt main_v9 main_v10
  let main_c_3 : IVec S_ 1 := constantI S_ 1 1#1
  let main_v12 : IVec S_ 1 := (fun x v => Host.reduce IntOp.andi x v reducesTo_S32768x768_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_arg7 main_arg8 main_arg9 main_arg10 main_arg11 main_arg12 main_arg13 main_arg14 main_arg15 main_arg16 main_arg17 main_arg18 main_v13 main_v16
-- ==== Kernel.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S32768x1 : Shape := ⟨2, ![32768, 1]⟩
abbrev S_ : Shape := ⟨0, ![]⟩
abbrev S512x768 : Shape := ⟨2, ![512, 768]⟩
abbrev S512x256 : Shape := ⟨2, ![512, 256]⟩
abbrev S512x128 : Shape := ⟨2, ![512, 128]⟩
abbrev S512x1 : Shape := ⟨2, ![512, 1]⟩
abbrev S512x1920 : Shape := ⟨2, ![512, 1920]⟩
abbrev S1x512 : Shape := ⟨2, ![1, 512]⟩

abbrev nBuf : Space → Nat
  | .hbm => 36
  | .vmem => 32
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x768, .f32⟩
  | .hbm, ⟨3, _⟩ => ⟨S32768x256, .f32⟩
  | .hbm, ⟨4, _⟩ => ⟨S32768x256, .f32⟩
  | .hbm, ⟨5, _⟩ => ⟨S32768x128, .f32⟩
  | .hbm, ⟨6, _⟩ => ⟨S32768x3, .i32⟩
  | .hbm, ⟨7, _⟩ => ⟨S1920x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S1920x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S32768x3, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S1920x512, .bf16⟩
  | .hbm, ⟨29, _⟩ => ⟨S512x512, .bf16⟩
  | .hbm, ⟨30, _⟩ => ⟨S512x512, .bf16⟩
  | .hbm, ⟨31, _⟩ => ⟨S1920x512, .bf16⟩
  | .hbm, ⟨32, _⟩ => ⟨S512x512, .bf16⟩
  | .hbm, ⟨33, _⟩ => ⟨S512x512, .bf16⟩
  | .hbm, ⟨34, _⟩ => ⟨S32768x512, .f32⟩
  | .hbm, ⟨35, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x768, .f32⟩
  | .local _ .vmem, ⟨5, _⟩ => ⟨S512x768, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S1920x512, .bf16⟩
  | .local _ .vmem, ⟨17, _⟩ => ⟨S512, .f32⟩
  | .local _ .vmem, ⟨18, _⟩ => ⟨S512x512, .bf16⟩
  | .local _ .vmem, ⟨19, _⟩ => ⟨S512, .f32⟩
  | .local _ .vmem, ⟨20, _⟩ => ⟨S512x512, .bf16⟩
  | .local _ .vmem, ⟨21, _⟩ => ⟨S512, .f32⟩
  | .local _ .vmem, ⟨22, _⟩ => ⟨S1920x512, .bf16⟩
  | .local _ .vmem, ⟨23, _⟩ => ⟨S512, .f32⟩
  | .local _ .vmem, ⟨24, _⟩ => ⟨S512x512, .bf16⟩
  | .local _ .vmem, ⟨25, _⟩ => ⟨S512, .f32⟩
  | .local _ .vmem, ⟨26, _⟩ => ⟨S512x512, .bf16⟩
  | .local _ .vmem, ⟨27, _⟩ => ⟨S512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1920x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1920x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S32768x3_S32768x1_0_0 : S32768x3.Slices ![0, 0] S32768x1
  bcast_S_S32768x1 : S_.BroadcastsInDim S32768x1 (![] : Fin 0 → Fin S32768x1.rank)
  slices_S32768x3_S32768x1_0_1 : S32768x3.Slices ![0, 1] S32768x1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x768_S512x768_0_0 : ∀ a, (![0, 0] : Fin 2 → Nat) a + S512x768.size a ≤ S512x768.size a
  h_S512x768 : 0 < S512x768.numel
  inb_S512x256_S512x256_0_0 : ∀ a, (![0, 0] : Fin 2 → Nat) a + S512x256.size a ≤ S512x256.size a
  h_S512x256 : 0 < S512x256.numel
  inb_S512x128_S512x128_0_0 : ∀ a, (![0, 0] : Fin 2 → Nat) a + S512x128.size a ≤ S512x128.size a
  h_S512x128 : 0 < S512x128.numel
  concatenates_S512x512_S512x768_S512x256_S512x256_S512x128_S512x1920_d1 : Shape.Concatenates [S512x512, S512x768, S512x256, S512x256, S512x128] S512x1920 1
  inb_S1920x512_S1920x512_0_0 : ∀ a, (![0, 0] : Fin 2 → Nat) a + S1920x512.size a ≤ S1920x512.size a
  h_S1920x512 : 0 < S1920x512.numel
  shapeCasts_S1920x512_S1920x512 : S1920x512.ShapeCasts S1920x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S512x1920_S1920x512_S512x512_1_0_0_1_n_n_wf : DotDims.WF S512x1920 S1920x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S32768x768.size a
  hwx0_2 : ∀ i : grid0.Coords, EltTy.bits .f32 = 32 ∨ (Rect.block (s := S32768x768) S512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S32768x256.size a
  hwx0_3 : ∀ i : grid0.Coords, EltTy.bits .f32 = 32 ∨ (Rect.block (s := S32768x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S32768x256.size a
  hwx0_4 : ∀ i : grid0.Coords, EltTy.bits .f32 = 32 ∨ (Rect.block (s := S32768x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S32768x128.size a
  hwx0_5 : ∀ i : grid0.Coords, EltTy.bits .f32 = 32 ∨ (Rect.block (s := S32768x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S32768x1.size a
  hwx0_6 : ∀ i : grid0.Coords, EltTy.bits .f32 = 32 ∨ (Rect.block (s := S32768x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S32768x1.size a
  hwx0_7 : ∀ i : grid0.Coords, EltTy.bits .f32 = 32 ∨ (Rect.block (s := S32768x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1920x512.size a ≤ S1920x512.size a
  hwx0_8 : ∀ i : grid0.Coords, EltTy.bits .bf16 = 32 ∨ (Rect.block (s := S1920x512) S1920x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1920x512.size a ≤ S1920x512.size a
  hwx0_14 : ∀ i : grid0.Coords, EltTy.bits .bf16 = 32 ∨ (Rect.block (s := S1920x512) S1920x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S32768x512.size a
  hwx0_20 : ∀ i : grid0.Coords, EltTy.bits .f32 = 32 ∨ (Rect.block (s := S32768x512) S512x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S32768x512.size a
  hwx0_21 : ∀ i : grid0.Coords, EltTy.bits .f32 = 32 ∨ (Rect.block (s := S32768x512) S512x512.size (cc0_transform_21 i) (hinb0_21 i)).WholeWords (EltTy.packing .f32)

variable [Facts₀]

def dot_S512x1920_S1920x512_S512x512_1_0_0_1_n_n : DotDims S512x1920 S1920x512 S512x512 where
  lhsContracting := [1]
  rhsContracting := [0]
  lhsNonContracting := [0]
  rhsNonContracting := [1]
  lhsBatch := []
  rhsBatch := []
  wf := dot_S512x1920_S1920x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1920x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1920x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v13_0) S512x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v13_1) S512x512.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S32768x640 : Shape := ⟨2, ![32768, 640]⟩
abbrev S32768x1920 : Shape := ⟨2, ![32768, 1920]⟩
abbrev S1x512 : Shape := ⟨2, ![1, 512]⟩
abbrev S_ : Shape := ⟨0, ![]⟩
abbrev S32768x1 : Shape := ⟨2, ![32768, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x768, .f32⟩
  | .hbm, ⟨3, _⟩ => ⟨S32768x256, .f32⟩
  | .hbm, ⟨4, _⟩ => ⟨S32768x256, .f32⟩
  | .hbm, ⟨5, _⟩ => ⟨S32768x128, .f32⟩
  | .hbm, ⟨6, _⟩ => ⟨S32768x3, .i32⟩
  | .hbm, ⟨7, _⟩ => ⟨S1920x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S1920x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S32768x3, .f32⟩
  | .hbm, ⟨20, _⟩ => ⟨S32768x640, .f32⟩
  | .hbm, ⟨21, _⟩ => ⟨S32768x1920, .f32⟩
  | .hbm, ⟨22, _⟩ => ⟨S32768x1920, .f32⟩
  | .hbm, ⟨23, _⟩ => ⟨S32768x512, .f32⟩
  | .hbm, ⟨24, _⟩ => ⟨S1x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S1x512, .f32⟩
  | .hbm, ⟨49, _⟩ => ⟨S32768x512, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S1x512, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x512, .f32⟩
  | .hbm, ⟨70, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call2_cst : Ref sig .tc := ⟨.hbm, 51, rfl⟩
abbrev main_call2_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_cst : Ref sig .tc := ⟨.hbm, 58, rfl⟩
abbrev main_call3_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  concatenates_S32768x256_S32768x256_S32768x128_S32768x640_d1 : Shape.Concatenates [S32768x256, S32768x256, S32768x128] S32768x640 1
  concatenates_S32768x512_S32768x768_S32768x640_S32768x1920_d1 : Shape.Concatenates [S32768x512, S32768x768, S32768x640] S32768x1920 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S32768x3_S32768x1_0_0 : S32768x3.Slices ![0, 0] S32768x1
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  slices_S32768x3_S32768x1_0_1 : S32768x3.Slices ![0, 1] S32768x1
  dot_S32768x1920_S1920x512_S32768x512_1_0_0_1_n_n_wf : DotDims.WF S32768x1920 S1920x512 S32768x512 [1] [0] [0] [1] [] []
  dot_S32768x512_S512x512_S32768x512_1_0_0_1_n_n_wf : DotDims.WF S32768x512 S512x512 S32768x512 [1] [0] [0] [1] [] []

variable [Facts₀]

def dot_S32768x1920_S1920x512_S32768x512_1_0_0_1_n_n : DotDims S32768x1920 S1920x512 S32768x512 where
  lhsContracting := [1]
  rhsContracting := [0]
  lhsNonContracting := [0]
  rhsNonContracting := [1]
  lhsBatch := []
  rhsBatch := []
  wf := dot_S32768x1920_S1920x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Rows.lean ====
/-
  One row of the two reconstruction networks, as extended reals.

  Each output row of the kernel and of the reference depends on ONE row of the data arrays only. Write x for the
  row of width 1920 obtained by laying five rows end to end (widths 512, 768, 256, 256, 128). A dense layer sends a
  row x of width K to the row of width N whose entry a is

      (∑ q : Fin K, x q · W (q, a)) + b a,

  the rectifier replaces every entry by its maximum with zero, and the network is dense, rectifier, dense, rectifier,
  dense. The output entry (r, j) is the network's entry j on row r, times the row's keep factor (the one entry of
  row r of a one-column array).

  Nothing here uses a law of the extended reals: both programs form exactly these sums, products and maxima in this
  order, and what differs between them — the number of rows processed at once, a change of float format (the
  identity on extended reals), whether the five pieces are joined at once or the last three first, the spelling of
  the matrix product and of the broadcasts — changes no value. The lemmas below read each spelling at one entry,
  for any number of rows R, so that they serve the kernel's blocks of rows and the reference's whole arrays alike.
-/
import Idealize.ShloMosaic.PureOps.Ideal.Laws
import Idealize.ShloMosaic.Lib.ValueIdx
import Idealize.ShloMosaic.Lib.ValueLayout
import Idealize.ShloMosaic.Lib.Pipeline.Value
import proofs.«123473_j78039555768356_1_alg».proof.Proof.LibDotPlain

noncomputable section

open scoped BigOperators

namespace Cert.MlpRows

open Idealize.ShloMosaic Idealize.ShloMosaic.ValueIdx

/-! ## The specification -/

/-- Row `r` of a two-axis array, as a function of the column. -/
def row {R N : Nat} (X : (⟨2, ![R, N]⟩ : Shape).Idx → EReal) (r : Fin R) : Fin N → EReal := fun q => X (ix2 r q)

/-- A dense layer on one row: entry `a` is the sum over q of x q · W (q, a), plus the bias b a. -/
def dense {K N : Nat} (x : Fin K → EReal) (W : (⟨2, ![K, N]⟩ : Shape).Idx → EReal) (b : (⟨1, ![N]⟩ : Shape).Idx → EReal) :
    Fin N → EReal :=
  fun a => (∑ q : Fin K, x q * W (ix2 q a)) + b (ix1 a)

/-- The rectifier on one row: the maximum of each entry with the value of the zero word. -/
def relu {N : Nat} (h : Fin N → EReal) : Fin N → EReal := fun a => max (h a) (Ideal.ofBits .f32 0x00000000#32)

/-- The three-layer network on one row of width 1920. -/
def mlp (x : Fin 1920 → EReal)
    (W1 : (⟨2, ![1920, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal) : Fin 512 → EReal :=
  dense (relu (dense (relu (dense x W1 b1)) W2 b2)) W3 b3

/-- Five rows of widths 512, 768, 256, 256, 128 laid end to end: column q falls in the piece whose span holds it,
    at q less the widths before that piece. -/
def cat5 (v : Fin 512 → EReal) (t : Fin 768 → EReal) (k : Fin 256 → EReal) (c : Fin 256 → EReal) (s : Fin 128 → EReal) :
    Fin 1920 → EReal :=
  fun q =>
    if h1 : q.val < 512 then v ⟨q.val, h1⟩
    else if h2 : q.val < 1280 then t ⟨q.val - 512, by omega⟩
    else if h3 : q.val < 1536 then k ⟨q.val - 1280, by omega⟩
    else if h4 : q.val < 1792 then c ⟨q.val - 1536, by omega⟩
    else s ⟨q.val - 1792, by have := q.isLt; omega⟩

/-- Output entry (r, j): the network on row r of the five data arrays, entry j, times row r's keep factor. -/
def reconAt {R : Nat}
    (xf : (⟨2, ![R, 512]⟩ : Shape).Idx → EReal) (xt : (⟨2, ![R, 768]⟩ : Shape).Idx → EReal)
    (xk : (⟨2, ![R, 256]⟩ : Shape).Idx → EReal) (xc : (⟨2, ![R, 256]⟩ : Shape).Idx → EReal)
    (xs : (⟨2, ![R, 128]⟩ : Shape).Idx → EReal)
    (W1 : (⟨2, ![1920, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal)
    (keep : (⟨2, ![R, 1]⟩ : Shape).Idx → EReal) (r : Fin R) (j : Fin 512) : EReal :=
  mlp (cat5 (row xf r) (row xt r) (row xk r) (row xc r) (row xs r)) W1 b1 W2 b2 W3 b3 j * keep (ix2 r (0 : Fin 1))

/-- The whole output array of R rows. -/
def recon {R : Nat}
    (xf : (⟨2, ![R, 512]⟩ : Shape).Idx → EReal) (xt : (⟨2, ![R, 768]⟩ : Shape).Idx → EReal)
    (xk : (⟨2, ![R, 256]⟩ : Shape).Idx → EReal) (xc : (⟨2, ![R, 256]⟩ : Shape).Idx → EReal)
    (xs : (⟨2, ![R, 128]⟩ : Shape).Idx → EReal)
    (W1 : (⟨2, ![1920, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal)
    (keep : (⟨2, ![R, 1]⟩ : Shape).Idx → EReal) : (⟨2, ![R, 512]⟩ : Shape).Idx → EReal :=
  fun i => reconAt xf xt xk xc xs W1 b1 W2 b2 W3 b3 keep (i 0) (i 1)

/-! ## A dense layer, in the kernel's spelling and in the host's -/

section Layers

variable {R K N : Nat}

/-- The kernel's layer: the product into the all-zero accumulator, plus the bias cast to one row and broadcast over
    the rows. Row r of it is the dense layer of row r. -/
theorem dense_matmul {φ₁ φ₂ : FTy} (d : DotDims ⟨2, ![R, K]⟩ ⟨2, ![K, N]⟩ ⟨2, ![R, N]⟩) (hd : d = DotDims.plain R K N)
    (X : FVec Ideal ⟨2, ![R, K]⟩ φ₁) (W : FVec Ideal ⟨2, ![K, N]⟩ φ₂)
    (hW : (⟨2, ![K, N]⟩ : Shape).ShapeCasts ⟨2, ![K, N]⟩)
    (b : FVec Ideal ⟨1, ![N]⟩ .f32) (hb : (⟨1, ![N]⟩ : Shape).ShapeCasts ⟨2, ![1, N]⟩)
    (hbb : (⟨2, ![1, N]⟩ : Shape).Broadcasts ⟨2, ![R, N]⟩) (r : Fin R) :
    row (addf (matmul d none X (shapeCast ⟨2, ![K, N]⟩ W hW) (constant ⟨2, ![R, N]⟩ .f32 0x00000000#32))
          (broadcastTo ⟨2, ![R, N]⟩ (shapeCast ⟨2, ![1, N]⟩ b hb) hbb)) r
      = dense (row X r) W b := by
  subst hd
  funext a
  show FloatOps.matmul (DotDims.plain R K N) none X (shapeCast ⟨2, ![K, N]⟩ W hW) (constant ⟨2, ![R, N]⟩ .f32 0x00000000#32) (ix2 r a)
        + broadcastTo ⟨2, ![R, N]⟩ (shapeCast ⟨2, ![1, N]⟩ b hb) hbb (ix2 r a)
      = (∑ q : Fin K, X (ix2 r q) * W (ix2 q a)) + b (ix1 a)
  rw [shapeCast_self, Cert.LibDotPlain.matmul_zero_plain, broadcastTo_1b_ab_apply, shapeCast_a_1a_apply]

/-- The host's layer: the product, plus the bias broadcast to one row and then over the rows. Row r of it is the
    dense layer of row r. -/
theorem dense_dot {φ₁ φ₂ : FTy} (d : DotDims ⟨2, ![R, K]⟩ ⟨2, ![K, N]⟩ ⟨2, ![R, N]⟩) (hd : d = DotDims.plain R K N)
    (X : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d none X W)
          (broadcastInDim ⟨2, ![R, N]⟩ ![0, 1] h2 (broadcastInDim ⟨2, ![1, N]⟩ ![1] h1 b))) r
      = dense (row X r) W b := by
  subst hd
  funext a
  show FloatOps.dotGeneral (DotDims.plain R K N) none .single X W (ix2 r a)
        + broadcastInDim ⟨2, ![R, N]⟩ ![0, 1] h2 (broadcastInDim ⟨2, ![1, N]⟩ ![1] h1 b) (ix2 r a)
      = (∑ q : Fin K, X (ix2 r q) * W (ix2 q a)) + b (ix1 a)
  rw [Cert.LibDotPlain.dotGeneral_plain]
  congr 1
  refine (broadcastInDim_apply ![0, 1] h2 _ (ix2 r a) (ix2 (0 : Fin 1) a) fun ax => ?_).trans ?_
  · match ax with
    | ⟨0, _⟩ => exact (if_pos rfl).symm
    | ⟨1, _⟩ =>
      show a.val = if N = 1 then 0 else a.val
      split
      · have := a.isLt; omega
      · rfl
  · refine broadcastInDim_apply ![1] h1 b (ix2 (0 : Fin 1) a) (ix1 a) fun ax => ?_
    match ax with
    | ⟨0, _⟩ =>
      show a.val = if N = 1 then 0 else a.val
      split
      · have := a.isLt; omega
      · rfl

/-- The kernel's rectifier: the maximum with the splat of the zero word, then a change of float format. -/
theorem relu_splat (H : FVec Ideal ⟨2, ![R, N]⟩ .f32) (h : FTy.bits .bf16 < FTy.bits .f32) (r : Fin R) :
    row (truncf .bf16 (maximumf H (broadcast ⟨2, ![R, N]⟩ (Scalar.ofBits (F := Ideal) .f32 0x00000000#32))) h) r
      = relu (row H r) := rfl

/-- The host's rectifier: the maximum with the zero constant broadcast from a scalar. -/
theorem relu_host (H : FVec Ideal ⟨2, ![R, N]⟩ .f32) (h0 : (⟨0, ![]⟩ : Shape).BroadcastsInDim ⟨2, ![R, N]⟩ ![]) (r : Fin R) :
    row (maximumf H (broadcastInDim ⟨2, ![R, N]⟩ ![] h0 (constant (F := Ideal) ⟨0, ![]⟩ .f32 0x00000000#32))) r
      = relu (row H r) := by
  funext a
  show max (H (ix2 r a)) (broadcastInDim ⟨2, ![R, N]⟩ ![] h0 (constant (F := Ideal) ⟨0, ![]⟩ .f32 0x00000000#32) (ix2 r a))
      = max (H (ix2 r a)) (Ideal.ofBits .f32 0x00000000#32)
  rw [broadcastInDim_apply ![] h0 _ (ix2 r a) ix0 fun ax => ax.elim0]
  rfl

/-- The kernel's keep factor: a one-column array broadcast over the columns reads, at (r, j), its row r. -/
theorem keep_bcastTo (k : FVec Ideal ⟨2, ![R, 1]⟩ .f32) (hk : (⟨2, ![R, 1]⟩ : Shape).ShapeCasts ⟨2, ![R, 1]⟩)
    (hkb : (⟨2, ![R, 1]⟩ : Shape).Broadcasts ⟨2, ![R, N]⟩) (r : Fin R) (j : Fin N) :
    broadcastTo ⟨2, ![R, N]⟩ (shapeCast ⟨2, ![R, 1]⟩ k hk) hkb (ix2 r j) = k (ix2 r (0 : Fin 1)) := by
  rw [shapeCast_self]
  refine broadcastTo_apply k hkb (ix2 r j) (ix2 r (0 : Fin 1)) fun ax => ?_
  match ax with
  | ⟨0, _⟩ =>
    show r.val = if R = 1 then 0 else r.val
    split
    · have := r.isLt; omega
    · rfl
  | ⟨1, _⟩ => exact (if_pos rfl).symm

/-- The host's keep factor: the same array broadcast along the columns by `broadcast_in_dim`. -/
theorem keep_bcastInDim (k : FVec Ideal ⟨2, ![R, 1]⟩ .f32)
    (hk : (⟨2, ![R, 1]⟩ : Shape).BroadcastsInDim ⟨2, ![R, N]⟩ ![0, 1]) (r : Fin R) (j : Fin N) :
    broadcastInDim ⟨2, ![R, N]⟩ ![0, 1] hk k (ix2 r j) = k (ix2 r (0 : Fin 1)) := by
  refine broadcastInDim_apply ![0, 1] hk k (ix2 r j) (ix2 r (0 : Fin 1)) fun ax => ?_
  match ax with
  | ⟨0, _⟩ =>
    show r.val = if R = 1 then 0 else r.val
    split
    · have := r.isLt; omega
    · rfl
  | ⟨1, _⟩ => exact (if_pos rfl).symm

end Layers

end Cert.MlpRows
-- ==== Proof.Concat.lean ====
/-
  Five arrays of R rows joined along the columns.

  Joining arrays of widths 512, 768, 256, 256 and 128 along the columns gives an array of width 1920 whose entry
  (r, q) is read from the piece whose span of columns holds q — the spans begin at 0, 512, 1280, 1536 and 1792 — at
  row r and at q less the span's beginning. Row r of the joined array is therefore the five pieces' rows r laid end
  to end. The same holds when the last three pieces are first joined into one array of width 640 and that array is
  joined behind the first two: a column q from 1280 on falls in the third outer piece at q − 1280, which falls in
  the inner piece beginning at 0, 256 or 512.
-/
import proofs.«123473_j78039555768356_1_alg».proof.Proof.Rows

noncomputable section

namespace Cert.MlpRows

open Idealize.ShloMosaic Idealize.ShloMosaic.ValueIdx

variable {R : Nat}

/-- An entry of a piece inside a join along the columns: the piece number `n`, the widths before it `pre`, and the
    column inside the piece. -/
theorem join_cols_piece {W w : Nat} (xs : List ((s : Shape) × (s.Idx → EReal)))
    (h : Shape.Concatenates (xs.map (·.1)) ⟨2, ![R, W]⟩ 1) (n : Nat) (hn : n < xs.length)
    (x : (⟨2, ![R, w]⟩ : Shape).Idx → EReal) (hx : xs[n] = ⟨⟨2, ![R, w]⟩, x⟩) (pre : Nat)
    (hpre : (((xs.take n).map (·.1)).map fun s => if h : s.rank = 2 then s.size ((1 : Fin 2).cast h.symm) else 0).sum = pre)
    (r : Fin R) (q : Fin W) (q' : Fin w) (hq : pre + q'.val = q.val) :
    concatenate ⟨2, ![R, W]⟩ 1 xs h (ix2 r q) = x (ix2 r q') := by
  refine concatenate_apply_piece (t := ⟨2, ![R, W]⟩) (1 : Fin 2) xs h (ix2 r q) n hn ⟨2, ![R, w]⟩ x hx rfl pre hpre
    (ix2 r q') ?_ ?_
  · intro b hb
    match b with
    | ⟨0, _⟩ => rfl
    | ⟨1, _⟩ => exact absurd rfl hb
  · exact hq

/-- Row r of the five pieces joined at once. -/
theorem cat5_flat
    (xf : (⟨2, ![R, 512]⟩ : Shape).Idx → EReal) (xt : (⟨2, ![R, 768]⟩ : Shape).Idx → EReal)
    (xk : (⟨2, ![R, 256]⟩ : Shape).Idx → EReal) (xc : (⟨2, ![R, 256]⟩ : Shape).Idx → EReal)
    (xs : (⟨2, ![R, 128]⟩ : Shape).Idx → EReal)
    (h : Shape.Concatenates [⟨2, ![R, 512]⟩, ⟨2, ![R, 768]⟩, ⟨2, ![R, 256]⟩, ⟨2, ![R, 256]⟩, ⟨2, ![R, 128]⟩] ⟨2, ![R, 1920]⟩ 1)
    (r : Fin R) :
    row (concatenate ⟨2, ![R, 1920]⟩ 1 [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h) r
      = cat5 (row xf r) (row xt r) (row xk r) (row xc r) (row xs r) := by
  funext q
  have hq := q.isLt
  unfold cat5
  show concatenate ⟨2, ![R, 1920]⟩ 1 [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h (ix2 r q) = _
  by_cases h1 : q.val < 512
  · rw [dif_pos h1]
    exact join_cols_piece [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h 0 (by show 0 < 5; decide) xf rfl 0 rfl r q ⟨q.val, h1⟩ (by show 0 + q.val = q.val; omega)
  rw [dif_neg h1]
  by_cases h2 : q.val < 1280
  · rw [dif_pos h2]
    exact join_cols_piece [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h 1 (by show 1 < 5; decide) xt rfl 512 rfl r q ⟨q.val - 512, by omega⟩ (by show 512 + (q.val - 512) = q.val; omega)
  rw [dif_neg h2]
  by_cases h3 : q.val < 1536
  · rw [dif_pos h3]
    exact join_cols_piece [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h 2 (by show 2 < 5; decide) xk rfl 1280 rfl r q ⟨q.val - 1280, by omega⟩ (by show 1280 + (q.val - 1280) = q.val; omega)
  rw [dif_neg h3]
  by_cases h4 : q.val < 1792
  · rw [dif_pos h4]
    exact join_cols_piece [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h 3 (by show 3 < 5; decide) xc rfl 1536 rfl r q ⟨q.val - 1536, by omega⟩ (by show 1536 + (q.val - 1536) = q.val; omega)
  rw [dif_neg h4]
  exact join_cols_piece [⟨⟨2, ![R, 512]⟩, xf⟩, ⟨⟨2, ![R, 768]⟩, xt⟩, ⟨⟨2, ![R, 256]⟩, xk⟩, ⟨⟨2, ![R, 256]⟩, xc⟩, ⟨⟨2, ![R, 128]⟩, xs⟩] h 4 (by show 4 < 5; decide) xs rfl 1792 rfl r q ⟨q.val - 1792, by omega⟩ (by show 1792 + (q.val - 1792) = q.val; omega)

/-- Row r of the first two pieces joined with the join of the last three. -/
theorem cat5_nested
    (xf : (⟨2, ![R, 512]⟩ : Shape).Idx → EReal) (xt : (⟨2, ![R, 768]⟩ : Shape).Idx → EReal)
    (xk : (⟨2, ![R, 256]⟩ : Shape).Idx → EReal) (xc : (⟨2, ![R, 256]⟩ : Shape).Idx → EReal)
    (xs : (⟨2, ![R, 128]⟩ : Shape).Idx → EReal)
    (h3 : Shape.Concatenates [⟨2, ![R, 256]⟩, ⟨2, ![R, 256]⟩, ⟨2, ![R, 128]⟩] ⟨2, ![R, 640]⟩ 1)
    (h : Shape.Concatenates [⟨2, ![R, 512]⟩, ⟨2, ![R, 768]⟩, ⟨2, ![R, 640]⟩] ⟨2, ![R, 1920]⟩ 1)
    (r : Fin R) :
    row (concatenate ⟨2, ![R, 1920]⟩ 1 [⟨⟨2, ![R, 512]⟩, xf⟩, ⟨⟨2, ![R, 768]⟩, xt⟩,
          ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h) r
      = cat5 (row xf r) (row xt r) (row xk r) (row xc r) (row xs r) := by
  funext q
  have hq := q.isLt
  unfold cat5
  show concatenate ⟨2, ![R, 1920]⟩ 1 [⟨⟨2, ![R, 512]⟩, xf⟩, ⟨⟨2, ![R, 768]⟩, xt⟩, ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h (ix2 r q) = _
  by_cases h1 : q.val < 512
  · rw [dif_pos h1]
    exact join_cols_piece [⟨⟨2, ![R, 512]⟩, xf⟩, ⟨⟨2, ![R, 768]⟩, xt⟩, ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h 0 (by show 0 < 3; decide) xf rfl 0 rfl r q ⟨q.val, h1⟩ (by show 0 + q.val = q.val; omega)
  rw [dif_neg h1]
  by_cases h2 : q.val < 1280
  · rw [dif_pos h2]
    exact join_cols_piece [⟨⟨2, ![R, 512]⟩, xf⟩, ⟨⟨2, ![R, 768]⟩, xt⟩, ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h 1 (by show 1 < 3; decide) xt rfl 512 rfl r q ⟨q.val - 512, by omega⟩ (by show 512 + (q.val - 512) = q.val; omega)
  rw [dif_neg h2]
  -- from column 1280 on: the third outer piece, at column q − 1280 of the inner join
  have outer : concatenate ⟨2, ![R, 1920]⟩ 1 [⟨⟨2, ![R, 512]⟩, xf⟩, ⟨⟨2, ![R, 768]⟩, xt⟩, ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h (ix2 r q)
      = concatenate ⟨2, ![R, 640]⟩ 1 [⟨⟨2, ![R, 256]⟩, xk⟩, ⟨⟨2, ![R, 256]⟩, xc⟩, ⟨⟨2, ![R, 128]⟩, xs⟩] h3 (ix2 r (⟨q.val - 1280, by omega⟩ : Fin 640)) :=
    join_cols_piece [⟨⟨2, ![R, 512]⟩, xf⟩, ⟨⟨2, ![R, 768]⟩, xt⟩, ⟨⟨2, ![R, 640]⟩, concatenate ⟨2, ![R, 640]⟩ 1 [⟨⟨2, ![R, 256]⟩, xk⟩, ⟨⟨2, ![R, 256]⟩, xc⟩, ⟨⟨2, ![R, 128]⟩, xs⟩] h3⟩] h 2 (by show 2 < 3; decide) _ rfl 1280 rfl r q ⟨q.val - 1280, by omega⟩ (by show 1280 + (q.val - 1280) = q.val; omega)
  rw [outer]
  by_cases h3' : q.val < 1536
  · rw [dif_pos h3']
    exact join_cols_piece [⟨⟨2, ![R, 256]⟩, xk⟩, ⟨⟨2, ![R, 256]⟩, xc⟩, ⟨⟨2, ![R, 128]⟩, xs⟩] h3 0 (by show 0 < 3; decide) xk rfl 0 rfl r _ ⟨q.val - 1280, by omega⟩ (by show 0 + (q.val - 1280) = q.val - 1280; omega)
  rw [dif_neg h3']
  by_cases h4 : q.val < 1792
  · rw [dif_pos h4]
    exact join_cols_piece [⟨⟨2, ![R, 256]⟩, xk⟩, ⟨⟨2, ![R, 256]⟩, xc⟩, ⟨⟨2, ![R, 128]⟩, xs⟩] h3 1 (by show 1 < 3; decide) xc rfl 256 rfl r _ ⟨q.val - 1536, by omega⟩ (by show 256 + (q.val - 1536) = q.val - 1280; omega)
  rw [dif_neg h4]
  exact join_cols_piece [⟨⟨2, ![R, 256]⟩, xk⟩, ⟨⟨2, ![R, 256]⟩, xc⟩, ⟨⟨2, ![R, 128]⟩, xs⟩] h3 2 (by show 2 < 3; decide) xs rfl 512 rfl r _ ⟨q.val - 1792, by omega⟩ (by show 512 + (q.val - 1792) = q.val - 1280; omega)

end Cert.MlpRows
-- ==== Proof.KernelBlock.lean ====
/-
  What one grid point's body stores, as the specification at 512 rows.

  The body loads a block of 512 rows of each data array, the six weight matrices and biases whole, and the two
  keep columns' blocks. Its first store is, entry (p, j): the network with the first weights on row p of the
  blocks [second data block | text | keywords | context | speaker], entry j, times the first keep column's row p;
  its second store the same with the first data block in front, the second weights and the second keep column.
  Each change of float format is the identity on extended reals, each matrix product into the zero array is the
  plain sum of products, and the body's maximum with the zero splat is the rectifier, so each stored block is
  the specification `recon` of the loaded blocks.
-/
import proofs.«123473_j78039555768356_1_alg».proof.Proof.Gen.KernelIdeal.Skeleton
import proofs.«123473_j78039555768356_1_alg».proof.Proof.Concat

noncomputable section

namespace Cert.KernelIdeal.Block

open Idealize.ShloMosaic Idealize.ShloMosaic.ValueIdx Cert.KernelIdeal Cert.KernelIdeal.Gen Cert.MlpRows

/-- The body's 512 × 1920 by 1920 × 512 product has the plain dimension numbers. -/
theorem dot1920_plain : dot_S512x1920_S1920x512_S512x512_1_0_0_1_n_n = DotDims.plain 512 1920 512 := rfl

/-- The body's 512 × 512 by 512 × 512 product has the plain dimension numbers. -/
theorem dot512_plain : dot_S512x512_S512x512_S512x512_1_0_0_1_n_n = DotDims.plain 512 512 512 := rfl

/-- Row p after the first network's two hidden layers: the rectified dense layers of row p of the joined blocks. -/
theorem hidden_first (v2 : FVec Ideal S512x512 .f32) (v4 : FVec Ideal S512x768 .f32) (v6 : FVec Ideal S512x256 .f32) (v8 : FVec Ideal S512x256 .f32) (v10 : FVec Ideal S512x128 .f32)
    (v13 : FVec Ideal S1920x512 .bf16) (v16 : FVec Ideal S512 .f32) (v23 : FVec Ideal S512x512 .bf16) (v26 : FVec Ideal S512 .f32)
    (p : Fin 512) :
    row (k0_pay7 (F := Ideal) v2 v4 v6 v8 v10 v13 v16 v23 v26) p
      = relu (dense (relu (dense (cat5 (row v2 p) (row v4 p) (row v6 p) (row v8 p) (row v10 p)) v13 v16)) v23 v26) := by
  dsimp only [k0_pay7, k0_pay3, k0_pay4, k0_pay5, k0_pay6]
  rw [relu_splat, dense_matmul _ dot512_plain, relu_splat, dense_matmul _ dot1920_plain, cat5_flat]
  rfl

/-- The first store: the specification of the loaded blocks. -/
theorem pay_first (v2 : FVec Ideal S512x512 .f32) (v4 : FVec Ideal S512x768 .f32) (v6 : FVec Ideal S512x256 .f32) (v8 : FVec Ideal S512x256 .f32) (v10 : FVec Ideal S512x128 .f32)
    (v13 : FVec Ideal S1920x512 .bf16) (v16 : FVec Ideal S512 .f32) (v23 : FVec Ideal S512x512 .bf16) (v26 : FVec Ideal S512 .f32)
    (v33 : FVec Ideal S512x512 .bf16) (v36 : FVec Ideal S512 .f32) (v40 : FVec Ideal S512x1 .f32) :
    k0_pay9 (F := Ideal) (k0_pay7 v2 v4 v6 v8 v10 v13 v16 v23 v26) (k0_pay8 v33) v36 v40
      = recon v2 v4 v6 v8 v10 v13 v16 v23 v26 v33 v36 v40 := by
  funext i
  obtain ⟨p, j, rfl⟩ : ∃ (p : Fin 512) (j : Fin 512), i = ix2 p j := ⟨i 0, i 1, eq_ix2 i⟩
  show k0_pay9 (F := Ideal) (k0_pay7 v2 v4 v6 v8 v10 v13 v16 v23 v26) (k0_pay8 v33) v36 v40 (ix2 p j)
      = reconAt v2 v4 v6 v8 v10 v13 v16 v23 v26 v33 v36 v40 p j
  dsimp only [k0_pay9, k0_pay8]
  rw [mulf_apply, keep_bcastTo]
  refine congrArg (· * v40 (ix2 p (0 : Fin 1))) ?_
  refine (congrFun (dense_matmul _ dot512_plain _ v33 _ v36 _ _ p) j).trans ?_
  rw [hidden_first]
  rfl

/-- Row p of the second network before the keep factor. -/
theorem net_second (v0 : FVec Ideal S512x512 .f32) (v4 : FVec Ideal S512x768 .f32) (v6 : FVec Ideal S512x256 .f32) (v8 : FVec Ideal S512x256 .f32) (v10 : FVec Ideal S512x128 .f32)
    (v46 : FVec Ideal S1920x512 .bf16) (v49 : FVec Ideal S512 .f32) (v56 : FVec Ideal S512x512 .bf16) (v59 : FVec Ideal S512 .f32)
    (v66 : FVec Ideal S512x512 .bf16) (v69 : FVec Ideal S512 .f32) (p : Fin 512) :
    row (k0_pay10 (F := Ideal) (k0_pay2 v0) (k0_pay3 v4) (k0_pay4 v6) (k0_pay5 v8) (k0_pay6 v10) v46 v49 v56 v59 v66 v69) p
      = mlp (cat5 (row v0 p) (row v4 p) (row v6 p) (row v8 p) (row v10 p)) v46 v49 v56 v59 v66 v69 := by
  dsimp only [k0_pay10, k0_pay2, k0_pay3, k0_pay4, k0_pay5, k0_pay6]
  rw [dense_matmul _ dot512_plain, relu_splat, dense_matmul _ dot512_plain, relu_splat, dense_matmul _ dot1920_plain, cat5_flat]
  rfl

/-- The second store: the specification of the loaded blocks. -/
theorem pay_second (v0 : FVec Ideal S512x512 .f32) (v4 : FVec Ideal S512x768 .f32) (v6 : FVec Ideal S512x256 .f32) (v8 : FVec Ideal S512x256 .f32) (v10 : FVec Ideal S512x128 .f32)
    (v46 : FVec Ideal S1920x512 .bf16) (v49 : FVec Ideal S512 .f32) (v56 : FVec Ideal S512x512 .bf16) (v59 : FVec Ideal S512 .f32)
    (v66 : FVec Ideal S512x512 .bf16) (v69 : FVec Ideal S512 .f32) (v73 : FVec Ideal S512x1 .f32) :
    k0_pay1 (F := Ideal) (k0_pay10 (k0_pay2 v0) (k0_pay3 v4) (k0_pay4 v6) (k0_pay5 v8) (k0_pay6 v10) v46 v49 v56 v59 v66 v69) v73
      = recon v0 v4 v6 v8 v10 v46 v49 v56 v59 v66 v69 v73 := by
  funext i
  obtain ⟨p, j, rfl⟩ : ∃ (p : Fin 512) (j : Fin 512), i = ix2 p j := ⟨i 0, i 1, eq_ix2 i⟩
  show k0_pay1 (F := Ideal) (k0_pay10 (k0_pay2 v0) (k0_pay3 v4) (k0_pay4 v6) (k0_pay5 v8) (k0_pay6 v10) v46 v49 v56 v59 v66 v69) v73 (ix2 p j)
      = reconAt v0 v4 v6 v8 v10 v46 v49 v56 v59 v66 v69 v73 p j
  dsimp only [k0_pay1]
  rw [mulf_apply, keep_bcastTo]
  refine congrArg (· * v73 (ix2 p (0 : Fin 1))) ?_
  exact congrFun (net_second v0 v4 v6 v8 v10 v46 v49 v56 v59 v66 v69 p) j

end Cert.KernelIdeal.Block
-- ==== Proof.KernelArray.lean ====
/-
  From the grid points' blocks to the two whole result arrays.

  The grid has 64 points. Point t stages rows 512·t … 512·t + 511 of the six data arrays and of the two keep
  columns, and every point stages the twelve weight arrays whole. So the block a window hands the body at point t
  is, entry by entry, the array read at row 512·t + p (for the row windows) or the array itself (for the weights);
  the weight matrices arrive through a change of float format, which is the identity on extended reals, and the keep
  columns are what the host computed before the launch: one minus the mask's column 0 (or 1) converted to a float.
  The body's stores are the specification of the loaded blocks, so point t writes back rows 512·t … 512·t + 511
  of the specification of the whole arrays; the 64 blocks cover all 32768 rows, hence each result array ends
  holding that specification.
-/
import proofs.«123473_j78039555768356_1_alg».proof.Proof.Gen.KernelIdeal.Value
import proofs.«123473_j78039555768356_1_alg».proof.Proof.KernelBlock
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.MlpRows
open Idealize.ShloMosaic.Pipeline (Dat)

variable (m : (ℓ : Loc nD τ sig) → Buf (Elt Ideal) ℓ) (ρ : Dev nD → PrngReg)

/-! ## What the host wrote before the launch -/

/-- The first keep column: one minus column 0 of the mask as a float. -/
def keepCol0 (mask : IVec S32768x3 32) : FVec Ideal S32768x1 .f32 :=
  subf (broadcastInDim S32768x1 ![] bcast_S_S32768x1 (constant (F := Ideal) S_ .f32 0x3F800000#32))
    (extractStridedSlice S32768x1 ![0, 0] (sitofp (F := Ideal) .f32 mask) slices_S32768x3_S32768x1_0_0)

/-- The second keep column: one minus column 1 of the mask as a float. -/
def keepCol1 (mask : IVec S32768x3 32) : FVec Ideal S32768x1 .f32 :=
  subf (broadcastInDim S32768x1 ![] bcast_S_S32768x1 (constant (F := Ideal) S_ .f32 0x3F800000#32))
    (extractStridedSlice S32768x1 ![0, 1] (sitofp (F := Ideal) .f32 mask) slices_S32768x3_S32768x1_0_1)

theorem V_keep0 (c : Dev nD) : (V m c main_v3 : S32768x1.Idx → EReal) = keepCol0 (m ((c : Thread nD τ).loc main_arg6)) := by
  dsimp only [V, hostOps0]
  after_results
  rfl

theorem V_keep1 (c : Dev nD) : (V m c main_v6 : S32768x1.Idx → EReal) = keepCol1 (m ((c : Thread nD τ).loc main_arg6)) := by
  dsimp only [V, hostOps0]
  after_results
  rfl

/-- Each weight matrix as the region finds it is the argument, through a format change: the identity here. -/
theorem V_w7 (c : Dev nD) : (V m c main_v7 : S1920x512.Idx → EReal) = (m ((c : Thread nD τ).loc main_arg7)) := by
  dsimp only [V, hostOps0]
  after_results
  rfl

theorem V_w8 (c : Dev nD) : (V m c main_v8 : S512x512.Idx → EReal) = (m ((c : Thread nD τ).loc main_arg9)) := by
  dsimp only [V, hostOps0]
  after_results
  rfl

theorem V_w9 (c : Dev nD) : (V m c main_v9 : S512x512.Idx → EReal) = (m ((c : Thread nD τ).loc main_arg11)) := by
  dsimp only [V, hostOps0]
  after_results
  rfl

theorem V_w10 (c : Dev nD) : (V m c main_v10 : S1920x512.Idx → EReal) = (m ((c : Thread nD τ).loc main_arg13)) := by
  dsimp only [V, hostOps0]
  after_results
  rfl

theorem V_w11 (c : Dev nD) : (V m c main_v11 : S512x512.Idx → EReal) = (m ((c : Thread nD τ).loc main_arg15)) := by
  dsimp only [V, hostOps0]
  after_results
  rfl

theorem V_w12 (c : Dev nD) : (V m c main_v12 : S512x512.Idx → EReal) = (m ((c : Thread nD τ).loc main_arg17)) := by
  dsimp only [V, hostOps0]
  after_results
  rfl

/-! ## The grid's index maps -/

/-- The row windows' block index at point t is (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

/-- The weight windows' block index is zero at every point. -/
theorem idx_whole : ∀ t : Fin cfg0.N,
    (win0_8.index t (0 : Fin 2) = 0 ∧ win0_8.index t (1 : Fin 2) = 0) ∧ win0_9.index t (0 : Fin 1) = 0
    ∧ (win0_10.index t (0 : Fin 2) = 0 ∧ win0_10.index t (1 : Fin 2) = 0) ∧ win0_11.index t (0 : Fin 1) = 0
    ∧ (win0_12.index t (0 : Fin 2) = 0 ∧ win0_12.index t (1 : Fin 2) = 0) ∧ win0_13.index t (0 : Fin 1) = 0
    ∧ (win0_14.index t (0 : Fin 2) = 0 ∧ win0_14.index t (1 : Fin 2) = 0) ∧ win0_15.index t (0 : Fin 1) = 0
    ∧ (win0_16.index t (0 : Fin 2) = 0 ∧ win0_16.index t (1 : Fin 2) = 0) ∧ win0_17.index t (0 : Fin 1) = 0
    ∧ (win0_18.index t (0 : Fin 2) = 0 ∧ win0_18.index t (1 : Fin 2) = 0) ∧ win0_19.index t (0 : Fin 1) = 0 :=
  (by decide +kernel : ∀ t : Fin grid0.N, _)

/-- Row p of point t's blocks is row 512·t + p of the arrays, which is below 32768 since t is below 64. -/
theorem row_lt (t : Fin cfg0.N) (p : Fin 512) : t.val * 512 + p.val < 32768 := by
  have ht : t.val < 64 := Nat.lt_of_lt_of_eq t.isLt N_0
  have := p.isLt
  omega

/-- The array row that row p of point t's blocks comes from. -/
def rowOf (t : Fin cfg0.N) (p : Fin 512) : Fin 32768 := ⟨t.val * 512 + p.val, row_lt t p⟩

/-! ## The row windows' blocks, read off the arrays -/

theorem rows0 (c : Dev nD) (t : Fin cfg0.N) (p : Fin 512) :
    row (R := 512) (N := 512) (iblk m c 0 t) p = row (m ((c : Thread nD τ).loc main_arg0)) (rowOf t p) := by
  obtain ⟨i0, i1, i2, i3, i4, i5, i6, i7, i20, i21⟩ := idx_rows t
  obtain ⟨e0, e1⟩ := i0
  funext q
  show V m c main_arg0 (((cfg0.win 0).blk t).view.emb (ix2 p q)) = (m ((c : Thread nD τ).loc main_arg0)) (ix2 (rowOf t p) q)
  rw [V_main_arg0]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 512 + 1 * q.val = q.val; omega

theorem rows1 (c : Dev nD) (t : Fin cfg0.N) (p : Fin 512) :
    row (R := 512) (N := 512) (iblk m c 1 t) p = row (m ((c : Thread nD τ).loc main_arg1)) (rowOf t p) := by
  obtain ⟨i0, i1, i2, i3, i4, i5, i6, i7, i20, i21⟩ := idx_rows t
  obtain ⟨e0, e1⟩ := i1
  funext q
  show V m c main_arg1 (((cfg0.win 1).blk t).view.emb (ix2 p q)) = (m ((c : Thread nD τ).loc main_arg1)) (ix2 (rowOf t p) q)
  rw [V_main_arg1]
  refine congrArg (m ((c : Thread nD τ).loc main_arg1)) (funext fun a => Fin.ext ?_)
  match a with
  | ⟨0, _⟩ => show win0_1.index t (0 : Fin 2) * 512 + 1 * p.val = t.val * 512 + p.val; omega
  | ⟨1, _⟩ => show win0_1.index t (1 : Fin 2) * 512 + 1 * q.val = q.val; omega

theorem rows2 (c : Dev nD) (t : Fin cfg0.N) (p : Fin 512) :
    row (R := 512) (N := 768) (iblk m c 2 t) p = row (m ((c : Thread nD τ).loc main_arg2)) (rowOf t p) := by
  obtain ⟨i0, i1, i2, i3, i4, i5, i6, i7, i20, i21⟩ := idx_rows t
  obtain ⟨e0, e1⟩ := i2
  funext q
  show V m c main_arg2 (((cfg0.win 2).blk t).view.emb (ix2 p q)) = (m ((c : Thread nD τ).loc main_arg2)) (ix2 (rowOf t p) q)
  rw [V_main_arg2]
  refine congrArg (m ((c : Thread nD τ).loc main_arg2)) (funext fun a => Fin.ext ?_)
  match a with
  | ⟨0, _⟩ => show win0_2.index t (0 : Fin 2) * 512 + 1 * p.val = t.val * 512 + p.val; omega
  | ⟨1, _⟩ => show win0_2.index t (1 : Fin 2) * 768 + 1 * q.val = q.val; omega

theorem rows3 (c : Dev nD) (t : Fin cfg0.N) (p : Fin 512) :
    row (R := 512) (N := 256) (iblk m c 3 t) p = row (m ((c : Thread nD τ).loc main_arg3)) (rowOf t p) := by
  obtain ⟨i0, i1, i2, i3, i4, i5, i6, i7, i20, i21⟩ := idx_rows t
  obtain ⟨e0, e1⟩ := i3
  funext q
  show V m c main_arg3 (((cfg0.win 3).blk t).view.emb (ix2 p q)) = (m ((c : Thread nD τ).loc main_arg3)) (ix2 (rowOf t p) q)
  rw [V_main_arg3]
  refine congrArg (m ((c : Thread nD τ).loc main_arg3)) (funext fun a => Fin.ext ?_)
  match a with
  | ⟨0, _⟩ => show win0_3.index t (0 : Fin 2) * 512 + 1 * p.val = t.val * 512 + p.val; omega
  | ⟨1, _⟩ => show win0_3.index t (1 : Fin 2) * 256 + 1 * q.val = q.val; omega

theorem rows4 (c : Dev nD) (t : Fin cfg0.N) (p : Fin 512) :
    row (R := 512) (N := 256) (iblk m c 4 t) p = row (m ((c : Thread nD τ).loc main_arg4)) (rowOf t p) := by
  obtain ⟨i0, i1, i2, i3, i4, i5, i6, i7, i20, i21⟩ := idx_rows t
  obtain ⟨e0, e1⟩ := i4
  funext q
  show V m c main_arg4 (((cfg0.win 4).blk t).view.emb (ix2 p q)) = (m ((c : Thread nD τ).loc main_arg4)) (ix2 (rowOf t p) q)
  rw [V_main_arg4]
  refine congrArg (m ((c : Thread nD τ).loc main_arg4)) (funext fun a => Fin.ext ?_)
  match a with
  | ⟨0, _⟩ => show win0_4.index t (0 : Fin 2) * 512 + 1 * p.val = t.val * 512 + p.val; omega
  | ⟨1, _⟩ => show win0_4.index t (1 : Fin 2) * 256 + 1 * q.val = q.val; omega

theorem rows5 (c : Dev nD) (t : Fin cfg0.N) (p : Fin 512) :
    row (R := 512) (N := 128) (iblk m c 5 t) p = row (m ((c : Thread nD τ).loc main_arg5)) (rowOf t p) := by
  obtain ⟨i0, i1, i2, i3, i4, i5, i6, i7, i20, i21⟩ := idx_rows t
  obtain ⟨e0, e1⟩ := i5
  funext q
  show V m c main_arg5 (((cfg0.win 5).blk t).view.emb (ix2 p q)) = (m ((c : Thread nD τ).loc main_arg5)) (ix2 (rowOf t p) q)
  rw [V_main_arg5]
  refine congrArg (m ((c : Thread nD τ).loc main_arg5)) (funext fun a => Fin.ext ?_)
  match a with
  | ⟨0, _⟩ => show win0_5.index t (0 : Fin 2) * 512 + 1 * p.val = t.val * 512 + p.val; omega
  | ⟨1, _⟩ => show win0_5.index t (1 : Fin 2) * 128 + 1 * q.val = q.val; omega

/-- Row p of the first keep column's block is row 512·t + p of the column the host computed. -/
theorem keep6 (c : Dev nD) (t : Fin cfg0.N) (p : Fin 512) :
    (iblk m c 6 t : FVec Ideal S512x1 .f32) (ix2 p (0 : Fin 1))
      = keepCol0 (m ((c : Thread nD τ).loc main_arg6)) (ix2 (rowOf t p) (0 : Fin 1)) := by
  obtain ⟨i0, i1, i2, i3, i4, i5, i6, i7, i20, i21⟩ := idx_rows t
  obtain ⟨e0, e1⟩ := i6
  show V m c main_v3 (((cfg0.win 6).blk t).view.emb (ix2 p (0 : Fin 1))) = _
  rw [V_keep0]
  refine congrArg (keepCol0 (m ((c : Thread nD τ).loc main_arg6))) (funext fun a => Fin.ext ?_)
  match a with
  | ⟨0, _⟩ => show win0_6.index t (0 : Fin 2) * 512 + 1 * p.val = t.val * 512 + p.val; omega
  | ⟨1, _⟩ => show win0_6.index t (1 : Fin 2) * 1 + 1 * 0 = 0; omega

/-- Row p of the second keep column's block is row 512·t + p of the column the host computed. -/
theorem keep7 (c : Dev nD) (t : Fin cfg0.N) (p : Fin 512) :
    (iblk m c 7 t : FVec Ideal S512x1 .f32) (ix2 p (0 : Fin 1))
      = keepCol1 (m ((c : Thread nD τ).loc main_arg6)) (ix2 (rowOf t p) (0 : Fin 1)) := by
  obtain ⟨i0, i1, i2, i3, i4, i5, i6, i7, i20, i21⟩ := idx_rows t
  obtain ⟨e0, e1⟩ := i7
  show V m c main_v6 (((cfg0.win 7).blk t).view.emb (ix2 p (0 : Fin 1))) = _
  rw [V_keep1]
  refine congrArg (keepCol1 (m ((c : Thread nD τ).loc main_arg6))) (funext fun a => Fin.ext ?_)
  match a with
  | ⟨0, _⟩ => show win0_7.index t (0 : Fin 2) * 512 + 1 * p.val = t.val * 512 + p.val; omega
  | ⟨1, _⟩ => show win0_7.index t (1 : Fin 2) * 1 + 1 * 0 = 0; omega

/-! ## The weight windows' blocks: the arrays whole -/

theorem whole8 (c : Dev nD) (t : Fin cfg0.N) : (iblk m c 8 t : FVec Ideal S1920x512 .bf16) = (m ((c : Thread nD τ).loc main_arg7)) := by
  obtain ⟨w8, w9, w10, w11, w12, w13, w14, w15, w16, w17, w18, w19⟩ := idx_whole t
  obtain ⟨e0, e1⟩ := w8
  funext y
  show V m c main_v7 (((cfg0.win 8).blk t).view.emb y) = (m ((c : Thread nD τ).loc main_arg7)) y
  rw [V_w7]
  refine congrArg (m ((c : Thread nD τ).loc main_arg7)) (funext fun a => Fin.ext ?_)
  match a with
  | ⟨0, _⟩ => show win0_8.index t (0 : Fin 2) * 1920 + 1 * (y 0).val = (y 0).val; omega
  | ⟨1, _⟩ => show win0_8.index t (1 : Fin 2) * 512 + 1 * (y 1).val = (y 1).val; omega

theorem whole9 (c : Dev nD) (t : Fin cfg0.N) : (iblk m c 9 t : FVec Ideal S512 .f32) = (m ((c : Thread nD τ).loc main_arg8)) := by
  obtain ⟨w8, w9, w10, w11, w12, w13, w14, w15, w16, w17, w18, w19⟩ := idx_whole t
  funext y
  show V m c main_arg8 (((cfg0.win 9).blk t).view.emb y) = (m ((c : Thread nD τ).loc main_arg8)) y
  rw [V_main_arg8]
  refine congrArg (m ((c : Thread nD τ).loc main_arg8)) (funext fun a => Fin.ext ?_)
  match a with
  | ⟨0, _⟩ => show win0_9.index t (0 : Fin 1) * 512 + 1 * (y 0).val = (y 0).val; omega

theorem whole10 (c : Dev nD) (t : Fin cfg0.N) : (iblk m c 10 t : FVec Ideal S512x512 .bf16) = (m ((c : Thread nD τ).loc main_arg9)) := by
  obtain ⟨w8, w9, w10, w11, w12, w13, w14, w15, w16, w17, w18, w19⟩ := idx_whole t
  obtain ⟨e0, e1⟩ := w10
  funext y
  show V m c main_v8 (((cfg0.win 10).blk t).view.emb y) = (m ((c : Thread nD τ).loc main_arg9)) y
  rw [V_w8]
  refine congrArg (m ((c : Thread nD τ).loc main_arg9)) (funext fun a => Fin.ext ?_)
  match a with
  | ⟨0, _⟩ => show win0_10.index t (0 : Fin 2) * 512 + 1 * (y 0).val = (y 0).val; omega
  | ⟨1, _⟩ => show win0_10.index t (1 : Fin 2) * 512 + 1 * (y 1).val = (y 1).val; omega

theorem whole11 (c : Dev nD) (t : Fin cfg0.N) : (iblk m c 11 t : FVec Ideal S512 .f32) = (m ((c : Thread nD τ).loc main_arg10)) := by
  obtain ⟨w8, w9, w10, w11, w12, w13, w14, w15, w16, w17, w18, w19⟩ := idx_whole t
  funext y
  show V m c main_arg10 (((cfg0.win 11).blk t).view.emb y) = (m ((c : Thread nD τ).loc main_arg10)) y
  rw [V_main_arg10]
  refine congrArg (m ((c : Thread nD τ).loc main_arg10)) (funext fun a => Fin.ext ?_)
  match a with
  | ⟨0, _⟩ => show win0_11.index t (0 : Fin 1) * 512 + 1 * (y 0).val = (y 0).val; omega

theorem whole12 (c : Dev nD) (t : Fin cfg0.N) : (iblk m c 12 t : FVec Ideal S512x512 .bf16) = (m ((c : Thread nD τ).loc main_arg11)) := by
  obtain ⟨w8, w9, w10, w11, w12, w13, w14, w15, w16, w17, w18, w19⟩ := idx_whole t
  obtain ⟨e0, e1⟩ := w12
  funext y
  show V m c main_v9 (((cfg0.win 12).blk t).view.emb y) = (m ((c : Thread nD τ).loc main_arg11)) y
  rw [V_w9]
  refine congrArg (m ((c : Thread nD τ).loc main_arg11)) (funext fun a => Fin.ext ?_)
  match a with
  | ⟨0, _⟩ => show win0_12.index t (0 : Fin 2) * 512 + 1 * (y 0).val = (y 0).val; omega
  | ⟨1, _⟩ => show win0_12.index t (1 : Fin 2) * 512 + 1 * (y 1).val = (y 1).val; omega

theorem whole13 (c : Dev nD) (t : Fin cfg0.N) : (iblk m c 13 t : FVec Ideal S512 .f32) = (m ((c : Thread nD τ).loc main_arg12)) := by
  obtain ⟨w8, w9, w10, w11, w12, w13, w14, w15, w16, w17, w18, w19⟩ := idx_whole t
  funext y
  show V m c main_arg12 (((cfg0.win 13).blk t).view.emb y) = (m ((c : Thread nD τ).loc main_arg12)) y
  rw [V_main_arg12]
  refine congrArg (m ((c : Thread nD τ).loc main_arg12)) (funext fun a => Fin.ext ?_)
  match a with
  | ⟨0, _⟩ => show win0_13.index t (0 : Fin 1) * 512 + 1 * (y 0).val = (y 0).val; omega

theorem whole14 (c : Dev nD) (t : Fin cfg0.N) : (iblk m c 14 t : FVec Ideal S1920x512 .bf16) = (m ((c : Thread nD τ).loc main_arg13)) := by
  obtain ⟨w8, w9, w10, w11, w12, w13, w14, w15, w16, w17, w18, w19⟩ := idx_whole t
  obtain ⟨e0, e1⟩ := w14
  funext y
  show V m c main_v10 (((cfg0.win 14).blk t).view.emb y) = (m ((c : Thread nD τ).loc main_arg13)) y
  rw [V_w10]
  refine congrArg (m ((c : Thread nD τ).loc main_arg13)) (funext fun a => Fin.ext ?_)
  match a with
  | ⟨0, _⟩ => show win0_14.index t (0 : Fin 2) * 1920 + 1 * (y 0).val = (y 0).val; omega
  | ⟨1, _⟩ => show win0_14.index t (1 : Fin 2) * 512 + 1 * (y 1).val = (y 1).val; omega

theorem whole15 (c : Dev nD) (t : Fin cfg0.N) : (iblk m c 15 t : FVec Ideal S512 .f32) = (m ((c : Thread nD τ).loc main_arg14)) := by
  obtain ⟨w8, w9, w10, w11, w12, w13, w14, w15, w16, w17, w18, w19⟩ := idx_whole t
  funext y
  show V m c main_arg14 (((cfg0.win 15).blk t).view.emb y) = (m ((c : Thread nD τ).loc main_arg14)) y
  rw [V_main_arg14]
  refine congrArg (m ((c : Thread nD τ).loc main_arg14)) (funext fun a => Fin.ext ?_)
  match a with
  | ⟨0, _⟩ => show win0_15.index t (0 : Fin 1) * 512 + 1 * (y 0).val = (y 0).val; omega

theorem whole16 (c : Dev nD) (t : Fin cfg0.N) : (iblk m c 16 t : FVec Ideal S512x512 .bf16) = (m ((c : Thread nD τ).loc main_arg15)) := by
  obtain ⟨w8, w9, w10, w11, w12, w13, w14, w15, w16, w17, w18, w19⟩ := idx_whole t
  obtain ⟨e0, e1⟩ := w16
  funext y
  show V m c main_v11 (((cfg0.win 16).blk t).view.emb y) = (m ((c : Thread nD τ).loc main_arg15)) y
  rw [V_w11]
  refine congrArg (m ((c : Thread nD τ).loc main_arg15)) (funext fun a => Fin.ext ?_)
  match a with
  | ⟨0, _⟩ => show win0_16.index t (0 : Fin 2) * 512 + 1 * (y 0).val = (y 0).val; omega
  | ⟨1, _⟩ => show win0_16.index t (1 : Fin 2) * 512 + 1 * (y 1).val = (y 1).val; omega

theorem whole17 (c : Dev nD) (t : Fin cfg0.N) : (iblk m c 17 t : FVec Ideal S512 .f32) = (m ((c : Thread nD τ).loc main_arg16)) := by
  obtain ⟨w8, w9, w10, w11, w12, w13, w14, w15, w16, w17, w18, w19⟩ := idx_whole t
  funext y
  show V m c main_arg16 (((cfg0.win 17).blk t).view.emb y) = (m ((c : Thread nD τ).loc main_arg16)) y
  rw [V_main_arg16]
  refine congrArg (m ((c : Thread nD τ).loc main_arg16)) (funext fun a => Fin.ext ?_)
  match a with
  | ⟨0, _⟩ => show win0_17.index t (0 : Fin 1) * 512 + 1 * (y 0).val = (y 0).val; omega

theorem whole18 (c : Dev nD) (t : Fin cfg0.N) : (iblk m c 18 t : FVec Ideal S512x512 .bf16) = (m ((c : Thread nD τ).loc main_arg17)) := by
  obtain ⟨w8, w9, w10, w11, w12, w13, w14, w15, w16, w17, w18, w19⟩ := idx_whole t
  obtain ⟨e0, e1⟩ := w18
  funext y
  show V m c main_v12 (((cfg0.win 18).blk t).view.emb y) = (m ((c : Thread nD τ).loc main_arg17)) y
  rw [V_w12]
  refine congrArg (m ((c : Thread nD τ).loc main_arg17)) (funext fun a => Fin.ext ?_)
  match a with
  | ⟨0, _⟩ => show win0_18.index t (0 : Fin 2) * 512 + 1 * (y 0).val = (y 0).val; omega
  | ⟨1, _⟩ => show win0_18.index t (1 : Fin 2) * 512 + 1 * (y 1).val = (y 1).val; omega

theorem whole19 (c : Dev nD) (t : Fin cfg0.N) : (iblk m c 19 t : FVec Ideal S512 .f32) = (m ((c : Thread nD τ).loc main_arg18)) := by
  obtain ⟨w8, w9, w10, w11, w12, w13, w14, w15, w16, w17, w18, w19⟩ := idx_whole t
  funext y
  show V m c main_arg18 (((cfg0.win 19).blk t).view.emb y) = (m ((c : Thread nD τ).loc main_arg18)) y
  rw [V_main_arg18]
  refine congrArg (m ((c : Thread nD τ).loc main_arg18)) (funext fun a => Fin.ext ?_)
  match a with
  | ⟨0, _⟩ => show win0_19.index t (0 : Fin 1) * 512 + 1 * (y 0).val = (y 0).val; omega

/-! ## The two result arrays -/

theorem hz2 : (![0, 0] : Fin 2 → Nat) = fun _ => 0 := funext fun a => by fin_cases a <;> rfl
theorem hz1 : (![0] : Fin 1 → Nat) = fun _ => 0 := funext fun a => by fin_cases a; rfl

/-- The first result: the first network on [visual | text | keywords | context | speaker], times the first keep column. -/
def G0 (c : Dev nD) : S32768x512.Idx → EReal :=
  recon (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (keepCol0 (m ((c : Thread nD τ).loc main_arg6)))

/-- The second result: the second network on [audio | text | keywords | context | speaker], times the second keep column. -/
def G1 (c : Dev nD) : S32768x512.Idx → EReal :=
  recon (m ((c : Thread nD τ).loc main_arg0)) (m ((c : Thread nD τ).loc main_arg2)) (m ((c : Thread nD τ).loc main_arg3)) (m ((c : Thread nD τ).loc main_arg4)) (m ((c : Thread nD τ).loc main_arg5))
    (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (keepCol1 (m ((c : Thread nD τ).loc main_arg6)))

/-- What point t writes back to the first result is rows 512·t … 512·t + 511 of `G0`. -/
theorem flushed20_eq (c : Dev nD) (t : Fin cfg0.N) :
    (dats m 0 c).flushed 20 t = ((cfg0.win 20).blk t).view.read (Elt Ideal) (G0 m c) := by
  rw [Value.flushed20]
  unfold out0_20
  rw [View.canon_unit_zero hz2]
  simp only [View.ld_unit_zero (S := S512x512) hz2, View.ld_unit_zero (S := S512x768) hz2, View.ld_unit_zero (S := S512x256) hz2,
    View.ld_unit_zero (S := S512x128) hz2, View.ld_unit_zero (S := S1920x512) hz2, View.ld_unit_zero (S := S512) hz1,
    View.ld_unit_zero (S := S512x1) hz2]
  rw [Block.pay_first (iblk m c 1 t) (iblk m c 2 t) (iblk m c 3 t) (iblk m c 4 t) (iblk m c 5 t) (iblk m c 8 t) (iblk m c 9 t)
    (iblk m c 10 t) (iblk m c 11 t) (iblk m c 12 t) (iblk m c 13 t) (iblk m c 6 t)]
  rw [whole8 m c t, whole9 m c t, whole10 m c t, whole11 m c t, whole12 m c t, whole13 m c t]
  obtain ⟨i0, i1, i2, i3, i4, i5, i6, i7, i20, i21⟩ := idx_rows t
  obtain ⟨e0, e1⟩ := i20
  funext y
  obtain ⟨p, j, rfl⟩ : ∃ (p : Fin 512) (j : Fin 512), y = ix2 p j := ⟨y 0, y 1, eq_ix2 y⟩
  have hemb : ((cfg0.win 20).blk t).view.emb (ix2 p j) = ix2 (rowOf t p) j := by
    funext a
    apply Fin.ext
    match a with
    | ⟨0, _⟩ => show win0_20.index t (0 : Fin 2) * 512 + 1 * p.val = t.val * 512 + p.val; omega
    | ⟨1, _⟩ => show win0_20.index t (1 : Fin 2) * 512 + 1 * j.val = j.val; omega
  show reconAt (R := 512) (iblk m c 1 t) (iblk m c 2 t) (iblk m c 3 t) (iblk m c 4 t) (iblk m c 5 t)
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
        (iblk m c 6 t) p j
      = G0 m c (((cfg0.win 20).blk t).view.emb (ix2 p j))
  rw [hemb]
  show _ = reconAt (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
        (keepCol0 (m ((c : Thread nD τ).loc main_arg6))) (rowOf t p) j
  unfold reconAt
  rw [rows1 m c t p, rows2 m c t p, rows3 m c t p, rows4 m c t p, rows5 m c t p, keep6 m c t p]

/-- What point t writes back to the second result is rows 512·t … 512·t + 511 of `G1`. -/
theorem flushed21_eq (c : Dev nD) (t : Fin cfg0.N) :
    (dats m 0 c).flushed 21 t = ((cfg0.win 21).blk t).view.read (Elt Ideal) (G1 m c) := by
  rw [Value.flushed21]
  unfold out0_21
  rw [View.canon_unit_zero hz2]
  simp only [View.ld_unit_zero (S := S512x512) hz2, View.ld_unit_zero (S := S512x768) hz2, View.ld_unit_zero (S := S512x256) hz2,
    View.ld_unit_zero (S := S512x128) hz2, View.ld_unit_zero (S := S1920x512) hz2, View.ld_unit_zero (S := S512) hz1,
    View.ld_unit_zero (S := S512x1) hz2]
  rw [Block.pay_second (iblk m c 0 t) (iblk m c 2 t) (iblk m c 3 t) (iblk m c 4 t) (iblk m c 5 t) (iblk m c 14 t) (iblk m c 15 t)
    (iblk m c 16 t) (iblk m c 17 t) (iblk m c 18 t) (iblk m c 19 t) (iblk m c 7 t)]
  rw [whole14 m c t, whole15 m c t, whole16 m c t, whole17 m c t, whole18 m c t, whole19 m c t]
  obtain ⟨i0, i1, i2, i3, i4, i5, i6, i7, i20, i21⟩ := idx_rows t
  obtain ⟨e0, e1⟩ := i21
  funext y
  obtain ⟨p, j, rfl⟩ : ∃ (p : Fin 512) (j : Fin 512), y = ix2 p j := ⟨y 0, y 1, eq_ix2 y⟩
  have hemb : ((cfg0.win 21).blk t).view.emb (ix2 p j) = ix2 (rowOf t p) j := by
    funext a
    apply Fin.ext
    match a with
    | ⟨0, _⟩ => show win0_21.index t (0 : Fin 2) * 512 + 1 * p.val = t.val * 512 + p.val; omega
    | ⟨1, _⟩ => show win0_21.index t (1 : Fin 2) * 512 + 1 * j.val = j.val; omega
  show reconAt (R := 512) (iblk m c 0 t) (iblk m c 2 t) (iblk m c 3 t) (iblk m c 4 t) (iblk m c 5 t)
        (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
        (iblk m c 7 t) p j
      = G1 m c (((cfg0.win 21).blk t).view.emb (ix2 p j))
  rw [hemb]
  show _ = reconAt (m ((c : Thread nD τ).loc main_arg0)) (m ((c : Thread nD τ).loc main_arg2)) (m ((c : Thread nD τ).loc main_arg3)) (m ((c : Thread nD τ).loc main_arg4)) (m ((c : Thread nD τ).loc main_arg5))
        (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
        (keepCol1 (m ((c : Thread nD τ).loc main_arg6))) (rowOf t p) j
  unfold reconAt
  rw [rows0 m c t p, rows2 m c t p, rows3 m c t p, rows4 m c t p, rows5 m c t p, keep7 m c t p]

/-! ## The blocks cover the arrays -/

/-- An index is in point t's block of the first result iff each coordinate is in the block's range on its axis. -/
theorem mem_blk20 (t : Fin cfg0.N) (i : S32768x512.Idx) :
    i ∈ ((cfg0.win 20).blk t).view.set ↔ ∀ a : Fin 2, win0_20.index t a * S512x512.size a ≤ (i a).val ∧ (i a).val < win0_20.index t a * S512x512.size a + S512x512.size a := by
  show i ∈ ((View.whole main_v13_0).slice (win0_20.rect t)).set ↔ _
  rw [View.set_slice_whole, Rect.mem_set_unit]
  exact Iff.rfl

theorem mem_blk21 (t : Fin cfg0.N) (i : S32768x512.Idx) :
    i ∈ ((cfg0.win 21).blk t).view.set ↔ ∀ a : Fin 2, win0_21.index t a * S512x512.size a ≤ (i a).val ∧ (i a).val < win0_21.index t a * S512x512.size a + S512x512.size a := by
  show i ∈ ((View.whole main_v13_1).slice (win0_21.rect t)).set ↔ _
  rw [View.set_slice_whole, Rect.mem_set_unit]
  exact Iff.rfl

/-- Row r of either result lies in the block of point r / 512. -/
theorem cover20 (i : S32768x512.Idx) : ∃ t : Fin cfg0.N, (cfg0.win 20).flush t = true ∧ i ∈ ((cfg0.win 20).blk t).view.set := by
  have hi0 : (i 0).val < 32768 := (i 0).isLt
  have hi1 : (i 1).val < 512 := (i 1).isLt
  have hN : (i 0).val / 512 < cfg0.N := by rw [show cfg0.N = 64 from N_0]; omega
  obtain ⟨i0, i1, i2, i3, i4, i5, i6, i7, i20, i21⟩ := idx_rows ⟨(i 0).val / 512, hN⟩
  obtain ⟨e0, e1⟩ := i20
  refine ⟨⟨(i 0).val / 512, hN⟩, flush0_20 _, ?_⟩
  rw [mem_blk20]
  intro a
  match a with
  | ⟨0, _⟩ =>
    show win0_20.index ⟨(i 0).val / 512, hN⟩ (0 : Fin 2) * 512 ≤ (i 0).val ∧ (i 0).val < win0_20.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_20.index ⟨(i 0).val / 512, hN⟩ (1 : Fin 2) * 512 ≤ (i 1).val ∧ (i 1).val < win0_20.index ⟨(i 0).val / 512, hN⟩ (1 : Fin 2) * 512 + 512
    rw [e1]
    omega

theorem cover21 (i : S32768x512.Idx) : ∃ t : Fin cfg0.N, (cfg0.win 21).flush t = true ∧ i ∈ ((cfg0.win 21).blk t).view.set := by
  have hi0 : (i 0).val < 32768 := (i 0).isLt
  have hi1 : (i 1).val < 512 := (i 1).isLt
  have hN : (i 0).val / 512 < cfg0.N := by rw [show cfg0.N = 64 from N_0]; omega
  obtain ⟨i0, i1, i2, i3, i4, i5, i6, i7, i20, i21⟩ := idx_rows ⟨(i 0).val / 512, hN⟩
  obtain ⟨e0, e1⟩ := i21
  refine ⟨⟨(i 0).val / 512, hN⟩, flush0_21 _, ?_⟩
  rw [mem_blk21]
  intro a
  match a with
  | ⟨0, _⟩ =>
    show win0_21.index ⟨(i 0).val / 512, hN⟩ (0 : Fin 2) * 512 ≤ (i 0).val ∧ (i 0).val < win0_21.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_21.index ⟨(i 0).val / 512, hN⟩ (1 : Fin 2) * 512 ≤ (i 1).val ∧ (i 1).val < win0_21.index ⟨(i 0).val / 512, hN⟩ (1 : Fin 2) * 512 + 512
    rw [e1]
    omega

/-- The first result array after the run. -/
theorem final20 (c : Dev nD) : (dats m 0 c).arrAt 20 cfg0.N = G0 m c :=
  (dats m 0 c).arrAt_eq_of_cover 20 (G0 m c) (fun t _ => flushed20_eq m c t) cover20

/-- The second result array after the run. -/
theorem final21 (c : Dev nD) : (dats m 0 c).arrAt 21 cfg0.N = G1 m c :=
  (dats m 0 c).arrAt_eq_of_cover 21 (G1 m c) (fun t _ => flushed21_eq m c t) cover21

end Cert.KernelIdeal.Arr
-- ==== Proof.RefRows.lean ====
/-
  The reference's two results, as the specification at 32768 rows.

  The reference joins keywords, context and speaker first, then puts the visual (or the audio) array and the text
  in front, multiplies by the first weights, adds the bias, rectifies, twice more multiplies and adds, and
  multiplies by the keep column broadcast along the columns. Entry (r, j) of that is the network on row r of
  the five data arrays laid end to end, entry j, times row r of the keep column: the specification `recon`.
-/
import proofs.«123473_j78039555768356_1_alg».proof.Proof.Gen.ReferenceIdeal.Run
import proofs.«123473_j78039555768356_1_alg».proof.Proof.Concat

noncomputable section

namespace Cert.ReferenceIdeal.Rows

open Idealize.ShloMosaic Idealize.ShloMosaic.ValueIdx Cert.ReferenceIdeal Cert.ReferenceIdeal.Gen Cert.MlpRows

/-- The reference's 32768 × 1920 by 1920 × 512 product has the plain dimension numbers. -/
theorem dot1920_plain : dot_S32768x1920_S1920x512_S32768x512_1_0_0_1_n_n = DotDims.plain 32768 1920 512 := rfl

/-- The reference's 32768 × 512 by 512 × 512 product has the plain dimension numbers. -/
theorem dot512_plain : dot_S32768x512_S512x512_S32768x512_1_0_0_1_n_n = DotDims.plain 32768 512 512 := rfl

/-- One result of the reference, for any front array `xf`, weights and keep column: the specification. -/
theorem result_eq (xf : FVec Ideal S32768x512 .f32) (xt : FVec Ideal S32768x768 .f32) (xk : FVec Ideal S32768x256 .f32)
    (xc : FVec Ideal S32768x256 .f32) (xs : FVec Ideal S32768x128 .f32)
    (W1 : FVec Ideal S1920x512 .f32) (b1 : FVec Ideal S512 .f32) (W2 : FVec Ideal S512x512 .f32) (b2 : FVec Ideal S512 .f32)
    (W3 : FVec Ideal S512x512 .f32) (b3 : FVec Ideal S512 .f32) (keep : FVec Ideal S32768x1 .f32) :
    mulf (addf (Host.dotGeneral dot_S32768x512_S512x512_S32768x512_1_0_0_1_n_n none
        (maximumf (addf (Host.dotGeneral dot_S32768x512_S512x512_S32768x512_1_0_0_1_n_n none
          (maximumf (addf (Host.dotGeneral dot_S32768x1920_S1920x512_S32768x512_1_0_0_1_n_n none
            (concatenate S32768x1920 1 [⟨S32768x512, xf⟩, ⟨S32768x768, xt⟩, ⟨S32768x640, concatenate S32768x640 1 [⟨S32768x256, xk⟩, ⟨S32768x256, xc⟩, ⟨S32768x128, xs⟩] concatenates_S32768x256_S32768x256_S32768x128_S32768x640_d1⟩] concatenates_S32768x512_S32768x768_S32768x640_S32768x1920_d1)
            W1) (broadcastInDim S32768x512 ![0, 1] bcast_S1x512_S32768x512_0_1 (broadcastInDim S1x512 ![1] bcast_S512_S1x512_1 b1)))
            (broadcastInDim S32768x512 ![] bcast_S_S32768x512 (constant (F := Ideal) S_ .f32 0x00000000#32)))
          W2) (broadcastInDim S32768x512 ![0, 1] bcast_S1x512_S32768x512_0_1 (broadcastInDim S1x512 ![1] bcast_S512_S1x512_1 b2)))
          (broadcastInDim S32768x512 ![] bcast_S_S32768x512 (constant (F := Ideal) S_ .f32 0x00000000#32)))
        W3) (broadcastInDim S32768x512 ![0, 1] bcast_S1x512_S32768x512_0_1 (broadcastInDim S1x512 ![1] bcast_S512_S1x512_1 b3)))
      (broadcastInDim S32768x512 ![0, 1] bcast_S32768x1_S32768x512_0_1 keep)
      = recon xf xt xk xc xs W1 b1 W2 b2 W3 b3 keep := by
  funext i
  obtain ⟨r, j, rfl⟩ : ∃ (r : Fin 32768) (j : Fin 512), i = ix2 r j := ⟨i 0, i 1, eq_ix2 i⟩
  show _ = reconAt xf xt xk xc xs W1 b1 W2 b2 W3 b3 keep r j
  rw [mulf_apply, keep_bcastInDim]
  refine congrArg (· * keep (ix2 r (0 : Fin 1))) ?_
  refine (congrFun (dense_dot _ dot512_plain _ W3 b3 _ _ r) j).trans ?_
  rw [relu_host, dense_dot _ dot512_plain, relu_host, dense_dot _ dot1920_plain, cat5_nested]
  rfl

end Cert.ReferenceIdeal.Rows
-- ==== Proof.lean ====
/-
  The kernel computes two masked three-layer networks on 32768 rows, 512 rows per grid point, with every matrix
  operand first changed to a shorter float format; the reference computes the same two networks on the whole
  arrays in one format. At the ideal instance a change of float format is the identity and a matrix product is the
  plain sum of products, whichever unit forms it, so both programs leave in result entry (r, j) the same extended
  real: the network on row r of [front | text | keywords | context | speaker] at entry j (front is the visual array
  for the first result and the audio array for the second), times one minus the mask's column 0 (or 1) at row r.
  No law of the extended reals beyond that is used, so the precondition is never opened.

  The frames of the two kernel programs are the generated ones; the reference's frame is its run with the results
  dropped; the ideal pass rewrote nothing, so there is nothing to preserve. For the value claim the kernel's run
  with each result array named (the generated blockwise value leg) is re-posted at the specification of the whole
  arrays (`KernelArray`), and the reference's run at the same specification (`RefRows`), the arguments' agreement
  rewritten.
-/
import proofs.«123473_j78039555768356_1_alg».proof.Defs
import proofs.«123473_j78039555768356_1_alg».proof.Proof.Gen.Kernel
import proofs.«123473_j78039555768356_1_alg».proof.Proof.Gen.Kernel.Skeleton
import proofs.«123473_j78039555768356_1_alg».proof.Proof.Gen.Kernel.Launch
import proofs.«123473_j78039555768356_1_alg».proof.Proof.Gen.Kernel.Points
import proofs.«123473_j78039555768356_1_alg».proof.Proof.Gen.Kernel.Frame
import proofs.«123473_j78039555768356_1_alg».proof.Proof.Gen.KernelIdeal
import proofs.«123473_j78039555768356_1_alg».proof.Proof.Gen.KernelIdeal.Skeleton
import proofs.«123473_j78039555768356_1_alg».proof.Proof.Gen.KernelIdeal.Launch
import proofs.«123473_j78039555768356_1_alg».proof.Proof.Gen.KernelIdeal.Points
import proofs.«123473_j78039555768356_1_alg».proof.Proof.Gen.KernelIdeal.Frame
import proofs.«123473_j78039555768356_1_alg».proof.Proof.Gen.ReferenceIdeal
import proofs.«123473_j78039555768356_1_alg».proof.Proof.Gen.Pre_finite_inputs
import proofs.«123473_j78039555768356_1_alg».proof.Proof.Gen.KernelIdeal.Value
import proofs.«123473_j78039555768356_1_alg».proof.Proof.Gen.ReferenceIdeal.Run
import proofs.«123473_j78039555768356_1_alg».proof.Proof.KernelArray
import proofs.«123473_j78039555768356_1_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the two results at the specification of the argument arrays. -/
theorem algebraic : Cert.algebraic_KernelIdeal_ReferenceIdeal := by
  intro m ρ m' ρ' _ hagree
  refine ⟨fun c => Cert.KernelIdeal.Arr.G0 m c, fun c => Cert.KernelIdeal.Arr.G1 m c, ?_, ?_⟩
  · exact (θ_run Cert.KernelIdeal.defs _ _).mono
      (fun r h c => ⟨(h c).1.trans (Cert.KernelIdeal.Arr.final20 m c), (h c).2.1.trans (Cert.KernelIdeal.Arr.final21 m c), (h c).2.2⟩)
      (Cert.KernelIdeal.Value.run_blocks (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18⟩ := hagree c
      rw [a1, a2, a3, a4, a5, a6, a7, a8, a9, a10, a11, a12]
      exact Cert.ReferenceIdeal.Rows.result_eq _ _ _ _ _ _ _ _ _ _ _ _
    · obtain ⟨a0, a1, a2, a3, a4, a5, a6, a7, a8, a9, a10, a11, a12, a13, a14, a15, a16, a17, a18⟩ := hagree c
      rw [a0, a2, a3, a4, a5, a6, a13, a14, a15, a16, a17, a18]
      exact Cert.ReferenceIdeal.Rows.result_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
